-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S1024x1024 : Shape := ⟨2, ![1024, 1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S32768x1024 .f32) (main_arg1 : FVec F S1024x1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S32768x1024 : Shape := ⟨2, ![32768, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1024x1024_S1024x1024_0_0 : ∀ a, (![0, 0] : Fin 2 → Nat) a + S1024x1024.size a ≤ S1024x1024.size a
  h_S1024x1024 : 0 < S1024x1024.numel
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S32768x1024.size a
  hwx0_2 : ∀ i : grid0.Coords, EltTy.bits .f32 = 32 ∨ (Rect.block (s := S32768x1024) S1024x1024.size (cc0_transform_2 i) (hinb0_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S32768x1024_S1024x1024_S32768x1024_1_0_0_1_n_n_wf : DotDims.WF S32768x1024 S1024x1024 S32768x1024 [1] [0] [0] [1] [] []

variable [Facts₀]

def dot_S32768x1024_S1024x1024_S32768x1024_1_0_0_1_n_n : DotDims S32768x1024 S1024x1024 S32768x1024 where
  lhsContracting := [1]
  rhsContracting := [0]
  lhsNonContracting := [0]
  rhsNonContracting := [1]
  lhsBatch := []
  rhsBatch := []
  wf := dot_S32768x1024_S1024x1024_S32768x1024_1_0_0_1_n_n_wf

class Facts : Prop extends Facts₀ where

variable [Facts]
-- ==== Proof.Product.lean ====
/-
  The mathematics both programs compute. An array `x` of 32768 rows of length 1024 is multiplied on the right by a
  1024 × 1024 matrix `w`: entry (r, c) of the result is the sum over k of x[r, k] · w[k, c], taken on the extended
  reals. The same sum over a tile of 1024 consecutive rows is the tile's own product with `w`, and the whole product
  restricted to rows 1024·b … 1024·b + 1023 is the product of that tile of rows: every entry depends only on its own
  row of `x` and its own column of `w`, so cutting the rows into tiles changes no sum and needs no law of arithmetic.
-/
import Idealize.ShloMosaic.PureOps.Ideal
import Idealize.ShloMosaic.Lib.ValueIdx

noncomputable section

namespace Cert.RowsByMatrix

open Idealize.ShloMosaic Idealize.ShloMosaic.ValueIdx

/-- The array of all rows: 32768 rows of length 1024. -/
abbrev Rows : Shape := ⟨2, ![32768, 1024]⟩
/-- A tile of 1024 rows, which is also the shape of the square matrix. -/
abbrev Tile : Shape := ⟨2, ![1024, 1024]⟩

/-- The product `x · w` of all rows with the matrix: entry (r, c) is ∑ₖ x[r, k] · w[k, c]. -/
def product (x : FVec Ideal Rows .f32) (w : FVec Ideal Tile .f32) : FVec Ideal Rows .f32 :=
  fun i => ∑ k : Fin 1024, x (ix2 (i 0) k) * w (ix2 k (i 1))

/-- The product of one tile of 1024 rows with the matrix: the same sum, row by row of the tile. -/
def tileProduct (x : FVec Ideal Tile .f32) (w : FVec Ideal Tile .f32) : FVec Ideal Tile .f32 :=
  fun j => ∑ k : Fin 1024, x (ix2 (j 0) k) * w (ix2 k (j 1))

/-- Rows `1024·b + p` of the whole product are row `p` of the product of the tile holding those rows: if `xt` is the
    tile of `x` that starts at row `1024·b` (its entry (p, k) is x[1024·b + p, k]) and `wt` is `w` itself, then the
    entry of `x · w` at an index `i` with row `1024·b + p` and column `q` is the tile product's entry (p, q). -/
theorem product_at_tile (x : FVec Ideal Rows .f32) (w : FVec Ideal Tile .f32) (xt wt : FVec Ideal Tile .f32)
    (i : Rows.Idx) (j : Tile.Idx)
    (hx : ∀ k : Fin 1024, xt (ix2 (j 0) k) = x (ix2 (i 0) k))
    (hw : ∀ k : Fin 1024, wt (ix2 k (j 1)) = w (ix2 k (i 1))) :
    tileProduct xt wt j = product x w i := by
  unfold tileProduct product
  exact Finset.sum_congr rfl fun k _ => by rw [hx k, hw k]

end Cert.RowsByMatrix

end
-- ==== Proof.KernelValue.lean ====
/-
  The kernel's side, on the extended reals. The grid has 32 points; point `t` stages rows 1024·t … 1024·t + 1023 of
  the argument `x`, the whole matrix `w`, and rows 1024·t … 1024·t + 1023 of the result. Its body multiplies the staged
  tile of rows by the staged matrix on the matrix unit into a zero accumulator, so what it stores is the tile's product
  with `w` (0 + ∑ₖ x[p, k] · w[k, q], and 0 + s = s on the extended reals). A tile's product is the whole product
  restricted to the tile's rows (`Proof/Product.lean`), the 32 tiles of rows cover the result array, and so the result
  array ends holding the product of all rows with the matrix.
-/
import proofs.«425034_j14233521619090_3_alg».proof.Proof.Gen.KernelIdeal.Value
import proofs.«425034_j14233521619090_3_alg».proof.Proof.Product
import Idealize.ShloMosaic.Lib.Pipeline.Value
import Idealize.ShloMosaic.Lib.ValueIdx
import Idealize.ShloMosaic.PureOps.Ideal.Laws

noncomputable section

namespace Cert.KernelIdeal.TileValue

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)
open Cert.RowsByMatrix

/-! ## The body's product at an index -/

/-- The left operand of the matrix unit's product is read at (row of the output index, contraction coordinate): first axis. -/
theorem left_axis0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
/-- Second axis of the left operand's index: the contraction coordinate. -/
theorem left_axis1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
/-- First axis of the right operand's index: the contraction coordinate. -/
theorem right_axis0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
/-- Second axis of the right operand's index: the output index's column. -/
theorem right_axis1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- What the body stores: the matrix unit's product of the two loaded tiles into the zero accumulator is the tile
    product, entry (p, q) being ∑ₖ x[p, k] · w[k, q] — the accumulator's zero adds nothing, and the contraction's one
    axis of length 1024 is re-indexed by its coordinate. -/
theorem stored_eq (x0 x1 : Vec Ideal S1024x1024 .f32) : k0_pay1 (F := Ideal) x0 x1 = tileProduct x0 x1 := by
  funext j
  refine (Ideal.matmul_constant_zero_apply dot_S1024x1024_S1024x1024_S1024x1024_1_0_0_1_n_n none x0 x1 j).trans ?_
  unfold tileProduct
  rw [← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx j ((contrEquiv1 dot_S1024x1024_S1024x1024_S1024x1024_1_0_0_1_n_n 1024 rfl rfl).symm k) = ix2 (j 0) k := funext fun a => Fin.ext (by
    match a with
    | ⟨0, _⟩ => exact left_axis0 _ _
    | ⟨1, _⟩ => exact (left_axis1 _ _).trans hk)
  have er : dot_S1024x1024_S1024x1024_S1024x1024_1_0_0_1_n_n.rhsIdx j ((contrEquiv1 dot_S1024x1024_S1024x1024_S1024x1024_1_0_0_1_n_n 1024 rfl rfl).symm k) = ix2 k (j 1) := funext fun a => Fin.ext (by
    match a with
    | ⟨0, _⟩ => exact (right_axis0 _ _).trans hk
    | ⟨1, _⟩ => exact right_axis1 _ _)
  rw [el, er]
  rfl

/-! ## From the tiles to the array -/

variable (m : (ℓ : Loc nD τ sig) → Buf (Elt Ideal) ℓ) (ρ : Dev nD → PrngReg)

theorem origin : (![0, 0] : Fin 2 → Nat) = fun _ => 0 := funext fun a => by fin_cases a <;> rfl

/-- The three windows' block indices over the grid: the tile of rows staged from `x` is the tile of rows written to the
    result, its column block is 0; the matrix is always its one block (0, 0); the result's row-tile index is below 32. -/
theorem block_indices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 31 :=
  (by decide +kernel : ∀ t : Fin grid0.N, _)

/-- Every one of the 32 tiles of rows of the result is some grid point's. -/
theorem every_tile : ∀ b : Fin 32, ∃ t : Fin cfg0.N, win0_2.index t = ![b.val, 0] :=
  (by decide +kernel : ∀ b : Fin 32, ∃ t : Fin grid0.N, win0_2.index t = ![b.val, 0])

/-- What point `t` writes back is tile `t` of the product of the argument arrays: the stored tile product is the whole
    product on the tile's rows, the staged tile of `x` being those rows of `x` and the staged matrix being `w`. -/
theorem written_eq (c : Dev nD) (t : Fin cfg0.N) :
    (dats m 0 c).flushed 2 t = ((cfg0.win 2).blk t).view.read (Elt Ideal) (product (V m c main_arg0) (V m c main_arg1)) := by
  rw [flushed2]
  unfold out0_2
  rw [View.canon_unit_zero origin]
  simp only [View.ld_unit_zero (S := S1024x1024) origin]
  rw [stored_eq]
  obtain ⟨e0, e1, e2, e3, e4, e5⟩ := block_indices t
  funext j
  show tileProduct (iblk m c 0 t) (iblk m c 1 t) j = product (V m c main_arg0) (V m c main_arg1) (((cfg0.win 2).blk t).view.emb j)
  refine product_at_tile _ _ _ _ _ j (fun k => ?_) (fun k => ?_)
  · show V m c main_arg0 (((cfg0.win 0).blk t).view.emb (ix2 (j 0) k)) = V m c main_arg0 (ix2 ((((cfg0.win 2).blk t).view.emb j) 0) k)
    refine congrArg _ (funext fun a => Fin.ext ?_)
    match a with
    | ⟨0, _⟩ => show win0_0.index t (0 : Fin 2) * 1024 + 1 * (j 0).val = win0_2.index t (0 : Fin 2) * 1024 + 1 * (j 0).val; omega
    | ⟨1, _⟩ => show win0_0.index t (1 : Fin 2) * 1024 + 1 * k.val = k.val; omega
  · show V m c main_arg1 (((cfg0.win 1).blk t).view.emb (ix2 k (j 1))) = V m c main_arg1 (ix2 k ((((cfg0.win 2).blk t).view.emb j) 1))
    refine congrArg _ (funext fun a => Fin.ext ?_)
    match a with
    | ⟨0, _⟩ => show win0_1.index t (0 : Fin 2) * 1024 + 1 * k.val = k.val; omega
    | ⟨1, _⟩ => show win0_1.index t (1 : Fin 2) * 1024 + 1 * (j 1).val = win0_2.index t (1 : Fin 2) * 1024 + 1 * (j 1).val; omega

/-- An index of the result array lies in point `t`'s tile iff each coordinate lies in the tile's range on its axis. -/
theorem mem_tile (t : Fin cfg0.N) (i : S32768x1024.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

/-- The tiles cover the result: row `r` lies in the tile of rows number `r / 1024`, every column in its one column block. -/
theorem tiles_cover (i : S32768x1024.Idx) :
    ∃ t : Fin cfg0.N, (cfg0.win 2).flush t = true ∧ i ∈ ((cfg0.win 2).blk t).view.set := by
  have hi0 : (i 0).val < 32768 := (i 0).isLt
  have hi1 : (i 1).val < 1024 := (i 1).isLt
  obtain ⟨t, ht⟩ := every_tile ⟨(i 0).val / 1024, by omega⟩
  have q0 : win0_2.index t (0 : Fin 2) = (i 0).val / 1024 := congrFun ht 0
  have q1 : win0_2.index t (1 : Fin 2) = 0 := congrFun ht 1
  refine ⟨t, flush0_2 t, ?_⟩
  rw [mem_tile]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- The result array after the run is the product of the argument arrays. -/
theorem result_eq (c : Dev nD) :
    (dats m 0 c).arrAt 2 cfg0.N = product (m ((c : Thread nD τ).loc main_arg0)) (m ((c : Thread nD τ).loc main_arg1)) :=
  (dats m 0 c).arrAt_eq_of_cover 2 (product (m ((c : Thread nD τ).loc main_arg0)) (m ((c : Thread nD τ).loc main_arg1)))
    (fun t _ => written_eq m c t) tiles_cover

/-- Every weakly fair execution of the kernel's program ends with the result array at the product of the argument
    arrays and the arguments unchanged. -/
theorem run : θ_run defs (onTc (τ := τ) (main (F := Ideal))) ⟨m, fun _ => 0, ρ⟩ fun r => ∀ c : Dev nD,
      r.2.mem ((c : Thread nD τ).loc main_v0) = product (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_eq m c), (h c).2⟩) (run_blocks m ρ)

end Cert.KernelIdeal.TileValue

end
-- ==== Proof.ReferenceValue.lean ====
/-
  The reference's side. Its one host operation is a `dot_general` contracting the rows' axis of length 1024 with the
  matrix's first axis; read at an index on the extended reals it is the sum over k of x[r, k] · w[k, c], which is the
  product of `Proof/Product.lean` entry by entry: only the two operand indices have to be recognised as (r, k) and (k, c).
-/
import proofs.«425034_j14233521619090_3_alg».proof.Proof.Gen.ReferenceIdeal.Read
import proofs.«425034_j14233521619090_3_alg».proof.Proof.Product

noncomputable section

namespace Cert.ReferenceIdeal.RefValue

open Cert.ReferenceIdeal Cert.ReferenceIdeal.Gen Idealize.ShloMosaic Idealize.ShloMosaic.ValueIdx
open Cert.RowsByMatrix

/-- The left operand's index at output index `i` and contraction coordinate `k` is (row of `i`, k). -/
theorem left_index (i : S32768x1024.Idx) (k : Fin 1024) : Read.lidx_main_v0 i k = ix2 (i 0) k :=
  funext fun a => Fin.ext (by match a with | ⟨0, _⟩ => rfl | ⟨1, _⟩ => rfl)

/-- The right operand's index is (k, column of `i`). -/
theorem right_index (i : S32768x1024.Idx) (k : Fin 1024) : Read.ridx_main_v0 i k = ix2 k (i 1) :=
  funext fun a => Fin.ext (by match a with | ⟨0, _⟩ => rfl | ⟨1, _⟩ => rfl)

/-- The reference's result, as a function of its two arguments, is the product of the rows with the matrix. -/
theorem result_eq (x : FVec Ideal S32768x1024 .f32) (w : FVec Ideal S1024x1024 .f32) :
    Host.dotGeneral (F := Ideal) dot_S32768x1024_S1024x1024_S32768x1024_1_0_0_1_n_n none x w = product x w := by
  rw [Read.val_main_v0_eq]
  funext i
  rw [Read.val_main_v0_apply]
  unfold product
  exact Finset.sum_congr rfl fun k _ => by rw [left_index, right_index]; rfl

end Cert.ReferenceIdeal.RefValue

end
-- ==== Proof.lean ====
/-
  The kernel applies a 1024 × 1024 matrix `w` to each of 32768 rows of `x`: out = x · w, computed tile by tile — 32 grid
  points, each multiplying 1024 rows by the whole matrix on the matrix unit into a zero accumulator. The reference is
  the one matrix product `x · w` on the host. On the extended reals both results are, entry by entry, the sum over k
  of x[r, k] · w[k, c]: the kernel's because each tile's product is the whole product on that tile's rows and the
  tiles cover the result (`Proof/KernelValue.lean`), the reference's because that sum is what its contraction is
  (`Proof/ReferenceValue.lean`). No law of arithmetic beyond 0 + s = s is used, so the inputs' finiteness is never
  opened. The three programs run and keep their arguments (the two kernels' frames over the pipeline of their one
  call; the reference's from its run), and the idealization rewrote nothing, so there is nothing to preserve.
-/
import proofs.«425034_j14233521619090_3_alg».proof.Defs
import proofs.«425034_j14233521619090_3_alg».proof.Proof.Gen.Kernel
import proofs.«425034_j14233521619090_3_alg».proof.Proof.Gen.Kernel.Frame
import proofs.«425034_j14233521619090_3_alg».proof.Proof.Gen.KernelIdeal
import proofs.«425034_j14233521619090_3_alg».proof.Proof.Gen.KernelIdeal.Frame
import proofs.«425034_j14233521619090_3_alg».proof.Proof.Gen.KernelIdeal.Value
import proofs.«425034_j14233521619090_3_alg».proof.Proof.Gen.ReferenceIdeal
import proofs.«425034_j14233521619090_3_alg».proof.Proof.Gen.ReferenceIdeal.Run
import proofs.«425034_j14233521619090_3_alg».proof.Proof.Gen.ReferenceIdeal.Read
import proofs.«425034_j14233521619090_3_alg».proof.Proof.Gen.Pre_finite_inputs
import proofs.«425034_j14233521619090_3_alg».proof.Proof.Product
import proofs.«425034_j14233521619090_3_alg».proof.Proof.KernelValue
import proofs.«425034_j14233521619090_3_alg».proof.Proof.ReferenceValue
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs and keeps its arguments: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on `x` and `w`, both programs end with the result array at the product `x · w`. -/
theorem algebraic : Cert.algebraic_KernelIdeal_ReferenceIdeal := by
  intro m ρ m' ρ' _ hagree
  refine ⟨fun c => Cert.RowsByMatrix.product
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.TileValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.RefValue.result_eq _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
